-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x100 : Shape := ⟨2, ![8192, 100]⟩
abbrev S100x64 : Shape := ⟨2, ![100, 64]⟩
abbrev S_ : Shape := ⟨0, ![]⟩

class Facts : Prop where
  bcast_S_S8192x100 : S_.BroadcastsInDim S8192x100 (![] : Fin 0 → Fin S8192x100.rank)
  reducesTo_S8192x100_S_d0_1 : S8192x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_

variable [Facts]

def fn {F : FTy → Type} [FloatOps F] (main_arg0 : FVec F S8192x100 .f32) (main_arg1 : FVec F S100x64 .f32) : IVec S_ 1 :=
  let main_v0 : FVec F S8192x100 .f32 := Host.absf main_arg0
  let main_cst : FVec F S_ .f32 := constant S_ .f32 0x7F800000#32
  let main_v1 : FVec F S8192x100 .f32 := broadcastInDim S8192x100 ![] bcast_S_S8192x100 main_cst
  let main_v2 : IVec S8192x100 1 := cmpf .olt main_v0 main_v1
  let main_c : IVec S_ 1 := constantI S_ 1 1#1
  let main_v3 : IVec S_ 1 := (fun x v => Host.reduce IntOp.andi x v reducesTo_S8192x100_S_d0_1 h_S_) main_v2 main_c
  let main_v4 : FVec F S100x64 .f32 := Host.absf main_arg1
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  main_v8
-- ==== Kernel.lean ====
abbrev S8192x100 : Shape := ⟨2, ![8192, 100]⟩
abbrev S100x64 : Shape := ⟨2, ![100, 64]⟩
abbrev S8192x6400 : Shape := ⟨2, ![8192, 6400]⟩
abbrev S512x100 : Shape := ⟨2, ![512, 100]⟩
abbrev S512x6400 : Shape := ⟨2, ![512, 6400]⟩
abbrev S512x1 : Shape := ⟨2, ![512, 1]⟩
abbrev S1x64 : Shape := ⟨2, ![1, 64]⟩
abbrev S512x64 : Shape := ⟨2, ![512, 64]⟩
abbrev S512x128 : Shape := ⟨2, ![512, 128]⟩
abbrev S8192x1x6400 : Shape := ⟨3, ![8192, 1, 6400]⟩

abbrev nBuf : Space → Nat
  | .hbm => 4
  | .vmem => 5
  | .smem => 0
  | _ => 0

abbrev bufTy : (tb : Table) → Fin (tcTables nBuf tb) → BufTy
  | .hbm, ⟨0, _⟩ => ⟨S8192x100, .f32⟩
  | .hbm, ⟨1, _⟩ => ⟨S100x64, .f32⟩
  | .hbm, ⟨2, _⟩ => ⟨S8192x6400, .f32⟩
  | .hbm, ⟨3, _⟩ => ⟨S8192x1x6400, .f32⟩
  | .local _ .vmem, ⟨0, _⟩ => ⟨S512x100, .f32⟩
  | .local _ .vmem, ⟨1, _⟩ => ⟨S512x100, .f32⟩
  | .local _ .vmem, ⟨2, _⟩ => ⟨S100x64, .f32⟩
  | .local _ .vmem, ⟨3, _⟩ => ⟨S512x6400, .f32⟩
  | .local _ .vmem, ⟨4, _⟩ => ⟨S512x6400, .f32⟩
  | _, _ => ⟨S8192x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x100_S512x1_0_0 : ∀ a, (![0, 0] : Fin 2 → Nat) a + S512x1.size a ≤ S512x100.size a
  h_S512x1 : 0 < S512x1.numel
  inb_S512x100_S512x1_0_1 : ∀ a, (![0, 1] : Fin 2 → Nat) a + S512x1.size a ≤ S512x100.size a
  inb_S100x64_S1x64_0_0 : ∀ a, (![0, 0] : Fin 2 → Nat) a + S1x64.size a ≤ S100x64.size a
  h_S1x64 : 0 < S1x64.numel
  inb_S100x64_S1x64_1_0 : ∀ a, (![1, 0] : Fin 2 → Nat) a + S1x64.size a ≤ S100x64.size a
  broadcasts_S512x1_S512x64 : S512x1.Broadcasts S512x64
  broadcasts_S1x64_S512x64 : S1x64.Broadcasts S512x64
  concatenates_S512x64_S512x64_S512x128_d1 : Shape.Concatenates [S512x64, S512x64] S512x128 1
  inb_S512x6400_S512x128_0_0 : ∀ a, (![0, 0] : Fin 2 → Nat) a + S512x128.size a ≤ S512x6400.size a
  h_S512x128 : 0 < S512x128.numel
  inb_S512x100_S512x1_0_2 : ∀ a, (![0, 2] : Fin 2 → Nat) a + S512x1.size a ≤ S512x100.size a
  inb_S512x100_S512x1_0_3 : ∀ a, (![0, 3] : Fin 2 → Nat) a + S512x1.size a ≤ S512x100.size a
  inb_S100x64_S1x64_2_0 : ∀ a, (![2, 0] : Fin 2 → Nat) a + S1x64.size a ≤ S100x64.size a
  inb_S100x64_S1x64_3_0 : ∀ a, (![3, 0] : Fin 2 → Nat) a + S1x64.size a ≤ S100x64.size a
  inb_S512x6400_S512x128_0_128 : ∀ a, (![0, 128] : Fin 2 → Nat) a + S512x128.size a ≤ S512x6400.size a
  inb_S512x100_S512x1_0_4 : ∀ a, (![0, 4] : Fin 2 → Nat) a + S512x1.size a ≤ S512x100.size a
  inb_S512x100_S512x1_0_5 : ∀ a, (![0, 5] : Fin 2 → Nat) a + S512x1.size a ≤ S512x100.size a
  inb_S100x64_S1x64_4_0 : ∀ a, (![4, 0] : Fin 2 → Nat) a + S1x64.size a ≤ S100x64.size a
  inb_S100x64_S1x64_5_0 : ∀ a, (![5, 0] : Fin 2 → Nat) a + S1x64.size a ≤ S100x64.size a
  inb_S512x6400_S512x128_0_256 : ∀ a, (![0, 256] : Fin 2 → Nat) a + S512x128.size a ≤ S512x6400.size a
  inb_S512x100_S512x1_0_6 : ∀ a, (![0, 6] : Fin 2 → Nat) a + S512x1.size a ≤ S512x100.size a
  inb_S512x100_S512x1_0_7 : ∀ a, (![0, 7] : Fin 2 → Nat) a + S512x1.size a ≤ S512x100.size a
  inb_S100x64_S1x64_6_0 : ∀ a, (![6, 0] : Fin 2 → Nat) a + S1x64.size a ≤ S100x64.size a
  inb_S100x64_S1x64_7_0 : ∀ a, (![7, 0] : Fin 2 → Nat) a + S1x64.size a ≤ S100x64.size a
  inb_S512x6400_S512x128_0_384 : ∀ a, (![0, 384] : Fin 2 → Nat) a + S512x128.size a ≤ S512x6400.size a
  inb_S512x100_S512x1_0_8 : ∀ a, (![0, 8] : Fin 2 → Nat) a + S512x1.size a ≤ S512x100.size a
  inb_S512x100_S512x1_0_9 : ∀ a, (![0, 9] : Fin 2 → Nat) a + S512x1.size a ≤ S512x100.size a
  inb_S100x64_S1x64_8_0 : ∀ a, (![8, 0] : Fin 2 → Nat) a + S1x64.size a ≤ S100x64.size a
  inb_S100x64_S1x64_9_0 : ∀ a, (![9, 0] : Fin 2 → Nat) a + S1x64.size a ≤ S100x64.size a
  inb_S512x6400_S512x128_0_512 : ∀ a, (![0, 512] : Fin 2 → Nat) a + S512x128.size a ≤ S512x6400.size a
  inb_S512x100_S512x1_0_10 : ∀ a, (![0, 10] : Fin 2 → Nat) a + S512x1.size a ≤ S512x100.size a
  inb_S512x100_S512x1_0_11 : ∀ a, (![0, 11] : Fin 2 → Nat) a + S512x1.size a ≤ S512x100.size a
  inb_S100x64_S1x64_10_0 : ∀ a, (![10, 0] : Fin 2 → Nat) a + S1x64.size a ≤ S100x64.size a
  inb_S100x64_S1x64_11_0 : ∀ a, (![11, 0] : Fin 2 → Nat) a + S1x64.size a ≤ S100x64.size a
  inb_S512x6400_S512x128_0_640 : ∀ a, (![0, 640] : Fin 2 → Nat) a + S512x128.size a ≤ S512x6400.size a
  inb_S512x100_S512x1_0_12 : ∀ a, (![0, 12] : Fin 2 → Nat) a + S512x1.size a ≤ S512x100.size a
  inb_S512x100_S512x1_0_13 : ∀ a, (![0, 13] : Fin 2 → Nat) a + S512x1.size a ≤ S512x100.size a
  inb_S100x64_S1x64_12_0 : ∀ a, (![12, 0] : Fin 2 → Nat) a + S1x64.size a ≤ S100x64.size a
  inb_S100x64_S1x64_13_0 : ∀ a, (![13, 0] : Fin 2 → Nat) a + S1x64.size a ≤ S100x64.size a
  inb_S512x6400_S512x128_0_768 : ∀ a, (![0, 768] : Fin 2 → Nat) a + S512x128.size a ≤ S512x6400.size a
  inb_S512x100_S512x1_0_14 : ∀ a, (![0, 14] : Fin 2 → Nat) a + S512x1.size a ≤ S512x100.size a
  inb_S512x100_S512x1_0_15 : ∀ a, (![0, 15] : Fin 2 → Nat) a + S512x1.size a ≤ S512x100.size a
  inb_S100x64_S1x64_14_0 : ∀ a, (![14, 0] : Fin 2 → Nat) a + S1x64.size a ≤ S100x64.size a
  inb_S100x64_S1x64_15_0 : ∀ a, (![15, 0] : Fin 2 → Nat) a + S1x64.size a ≤ S100x64.size a
  inb_S512x6400_S512x128_0_896 : ∀ a, (![0, 896] : Fin 2 → Nat) a + S512x128.size a ≤ S512x6400.size a
  inb_S512x100_S512x1_0_16 : ∀ a, (![0, 16] : Fin 2 → Nat) a + S512x1.size a ≤ S512x100.size a
  inb_S512x100_S512x1_0_17 : ∀ a, (![0, 17] : Fin 2 → Nat) a + S512x1.size a ≤ S512x100.size a
  inb_S100x64_S1x64_16_0 : ∀ a, (![16, 0] : Fin 2 → Nat) a + S1x64.size a ≤ S100x64.size a
  inb_S100x64_S1x64_17_0 : ∀ a, (![17, 0] : Fin 2 → Nat) a + S1x64.size a ≤ S100x64.size a
  inb_S512x6400_S512x128_0_1024 : ∀ a, (![0, 1024] : Fin 2 → Nat) a + S512x128.size a ≤ S512x6400.size a
  inb_S512x100_S512x1_0_18 : ∀ a, (![0, 18] : Fin 2 → Nat) a + S512x1.size a ≤ S512x100.size a
  inb_S512x100_S512x1_0_19 : ∀ a, (![0, 19] : Fin 2 → Nat) a + S512x1.size a ≤ S512x100.size a
  inb_S100x64_S1x64_18_0 : ∀ a, (![18, 0] : Fin 2 → Nat) a + S1x64.size a ≤ S100x64.size a
  inb_S100x64_S1x64_19_0 : ∀ a, (![19, 0] : Fin 2 → Nat) a + S1x64.size a ≤ S100x64.size a
  inb_S512x6400_S512x128_0_1152 : ∀ a, (![0, 1152] : Fin 2 → Nat) a + S512x128.size a ≤ S512x6400.size a
  inb_S512x100_S512x1_0_20 : ∀ a, (![0, 20] : Fin 2 → Nat) a + S512x1.size a ≤ S512x100.size a
  inb_S512x100_S512x1_0_21 : ∀ a, (![0, 21] : Fin 2 → Nat) a + S512x1.size a ≤ S512x100.size a
  inb_S100x64_S1x64_20_0 : ∀ a, (![20, 0] : Fin 2 → Nat) a + S1x64.size a ≤ S100x64.size a
  inb_S100x64_S1x64_21_0 : ∀ a, (![21, 0] : Fin 2 → Nat) a + S1x64.size a ≤ S100x64.size a
  inb_S512x6400_S512x128_0_1280 : ∀ a, (![0, 1280] : Fin 2 → Nat) a + S512x128.size a ≤ S512x6400.size a
  inb_S512x100_S512x1_0_22 : ∀ a, (![0, 22] : Fin 2 → Nat) a + S512x1.size a ≤ S512x100.size a
  inb_S512x100_S512x1_0_23 : ∀ a, (![0, 23] : Fin 2 → Nat) a + S512x1.size a ≤ S512x100.size a
  inb_S100x64_S1x64_22_0 : ∀ a, (![22, 0] : Fin 2 → Nat) a + S1x64.size a ≤ S100x64.size a
  inb_S100x64_S1x64_23_0 : ∀ a, (![23, 0] : Fin 2 → Nat) a + S1x64.size a ≤ S100x64.size a
  inb_S512x6400_S512x128_0_1408 : ∀ a, (![0, 1408] : Fin 2 → Nat) a + S512x128.size a ≤ S512x6400.size a
  inb_S512x100_S512x1_0_24 : ∀ a, (![0, 24] : Fin 2 → Nat) a + S512x1.size a ≤ S512x100.size a
  inb_S512x100_S512x1_0_25 : ∀ a, (![0, 25] : Fin 2 → Nat) a + S512x1.size a ≤ S512x100.size a
  inb_S100x64_S1x64_24_0 : ∀ a, (![24, 0] : Fin 2 → Nat) a + S1x64.size a ≤ S100x64.size a
  inb_S100x64_S1x64_25_0 : ∀ a, (![25, 0] : Fin 2 → Nat) a + S1x64.size a ≤ S100x64.size a
  inb_S512x6400_S512x128_0_1536 : ∀ a, (![0, 1536] : Fin 2 → Nat) a + S512x128.size a ≤ S512x6400.size a
  inb_S512x100_S512x1_0_26 : ∀ a, (![0, 26] : Fin 2 → Nat) a + S512x1.size a ≤ S512x100.size a
  inb_S512x100_S512x1_0_27 : ∀ a, (![0, 27] : Fin 2 → Nat) a + S512x1.size a ≤ S512x100.size a
  inb_S100x64_S1x64_26_0 : ∀ a, (![26, 0] : Fin 2 → Nat) a + S1x64.size a ≤ S100x64.size a
  inb_S100x64_S1x64_27_0 : ∀ a, (![27, 0] : Fin 2 → Nat) a + S1x64.size a ≤ S100x64.size a
  inb_S512x6400_S512x128_0_1664 : ∀ a, (![0, 1664] : Fin 2 → Nat) a + S512x128.size a ≤ S512x6400.size a
  inb_S512x100_S512x1_0_28 : ∀ a, (![0, 28] : Fin 2 → Nat) a + S512x1.size a ≤ S512x100.size a
  inb_S512x100_S512x1_0_29 : ∀ a, (![0, 29] : Fin 2 → Nat) a + S512x1.size a ≤ S512x100.size a
  inb_S100x64_S1x64_28_0 : ∀ a, (![28, 0] : Fin 2 → Nat) a + S1x64.size a ≤ S100x64.size a
  inb_S100x64_S1x64_29_0 : ∀ a, (![29, 0] : Fin 2 → Nat) a + S1x64.size a ≤ S100x64.size a
  inb_S512x6400_S512x128_0_1792 : ∀ a, (![0, 1792] : Fin 2 → Nat) a + S512x128.size a ≤ S512x6400.size a
  inb_S512x100_S512x1_0_30 : ∀ a, (![0, 30] : Fin 2 → Nat) a + S512x1.size a ≤ S512x100.size a
  inb_S512x100_S512x1_0_31 : ∀ a, (![0, 31] : Fin 2 → Nat) a + S512x1.size a ≤ S512x100.size a
  inb_S100x64_S1x64_30_0 : ∀ a, (![30, 0] : Fin 2 → Nat) a + S1x64.size a ≤ S100x64.size a
  inb_S100x64_S1x64_31_0 : ∀ a, (![31, 0] : Fin 2 → Nat) a + S1x64.size a ≤ S100x64.size a
  inb_S512x6400_S512x128_0_1920 : ∀ a, (![0, 1920] : Fin 2 → Nat) a + S512x128.size a ≤ S512x6400.size a
  inb_S512x100_S512x1_0_32 : ∀ a, (![0, 32] : Fin 2 → Nat) a + S512x1.size a ≤ S512x100.size a
  inb_S512x100_S512x1_0_33 : ∀ a, (![0, 33] : Fin 2 → Nat) a + S512x1.size a ≤ S512x100.size a
  inb_S100x64_S1x64_32_0 : ∀ a, (![32, 0] : Fin 2 → Nat) a + S1x64.size a ≤ S100x64.size a
  inb_S100x64_S1x64_33_0 : ∀ a, (![33, 0] : Fin 2 → Nat) a + S1x64.size a ≤ S100x64.size a
  inb_S512x6400_S512x128_0_2048 : ∀ a, (![0, 2048] : Fin 2 → Nat) a + S512x128.size a ≤ S512x6400.size a
  inb_S512x100_S512x1_0_34 : ∀ a, (![0, 34] : Fin 2 → Nat) a + S512x1.size a ≤ S512x100.size a
  inb_S512x100_S512x1_0_35 : ∀ a, (![0, 35] : Fin 2 → Nat) a + S512x1.size a ≤ S512x100.size a
  inb_S100x64_S1x64_34_0 : ∀ a, (![34, 0] : Fin 2 → Nat) a + S1x64.size a ≤ S100x64.size a
  inb_S100x64_S1x64_35_0 : ∀ a, (![35, 0] : Fin 2 → Nat) a + S1x64.size a ≤ S100x64.size a
  inb_S512x6400_S512x128_0_2176 : ∀ a, (![0, 2176] : Fin 2 → Nat) a + S512x128.size a ≤ S512x6400.size a
  inb_S512x100_S512x1_0_36 : ∀ a, (![0, 36] : Fin 2 → Nat) a + S512x1.size a ≤ S512x100.size a
  inb_S512x100_S512x1_0_37 : ∀ a, (![0, 37] : Fin 2 → Nat) a + S512x1.size a ≤ S512x100.size a
  inb_S100x64_S1x64_36_0 : ∀ a, (![36, 0] : Fin 2 → Nat) a + S1x64.size a ≤ S100x64.size a
  inb_S100x64_S1x64_37_0 : ∀ a, (![37, 0] : Fin 2 → Nat) a + S1x64.size a ≤ S100x64.size a
  inb_S512x6400_S512x128_0_2304 : ∀ a, (![0, 2304] : Fin 2 → Nat) a + S512x128.size a ≤ S512x6400.size a
  inb_S512x100_S512x1_0_38 : ∀ a, (![0, 38] : Fin 2 → Nat) a + S512x1.size a ≤ S512x100.size a
  inb_S512x100_S512x1_0_39 : ∀ a, (![0, 39] : Fin 2 → Nat) a + S512x1.size a ≤ S512x100.size a
  inb_S100x64_S1x64_38_0 : ∀ a, (![38, 0] : Fin 2 → Nat) a + S1x64.size a ≤ S100x64.size a
  inb_S100x64_S1x64_39_0 : ∀ a, (![39, 0] : Fin 2 → Nat) a + S1x64.size a ≤ S100x64.size a
  inb_S512x6400_S512x128_0_2432 : ∀ a, (![0, 2432] : Fin 2 → Nat) a + S512x128.size a ≤ S512x6400.size a
  inb_S512x100_S512x1_0_40 : ∀ a, (![0, 40] : Fin 2 → Nat) a + S512x1.size a ≤ S512x100.size a
  inb_S512x100_S512x1_0_41 : ∀ a, (![0, 41] : Fin 2 → Nat) a + S512x1.size a ≤ S512x100.size a
  inb_S100x64_S1x64_40_0 : ∀ a, (![40, 0] : Fin 2 → Nat) a + S1x64.size a ≤ S100x64.size a
  inb_S100x64_S1x64_41_0 : ∀ a, (![41, 0] : Fin 2 → Nat) a + S1x64.size a ≤ S100x64.size a
  inb_S512x6400_S512x128_0_2560 : ∀ a, (![0, 2560] : Fin 2 → Nat) a + S512x128.size a ≤ S512x6400.size a
  inb_S512x100_S512x1_0_42 : ∀ a, (![0, 42] : Fin 2 → Nat) a + S512x1.size a ≤ S512x100.size a
  inb_S512x100_S512x1_0_43 : ∀ a, (![0, 43] : Fin 2 → Nat) a + S512x1.size a ≤ S512x100.size a
  inb_S100x64_S1x64_42_0 : ∀ a, (![42, 0] : Fin 2 → Nat) a + S1x64.size a ≤ S100x64.size a
  inb_S100x64_S1x64_43_0 : ∀ a, (![43, 0] : Fin 2 → Nat) a + S1x64.size a ≤ S100x64.size a
  inb_S512x6400_S512x128_0_2688 : ∀ a, (![0, 2688] : Fin 2 → Nat) a + S512x128.size a ≤ S512x6400.size a
  inb_S512x100_S512x1_0_44 : ∀ a, (![0, 44] : Fin 2 → Nat) a + S512x1.size a ≤ S512x100.size a
  inb_S512x100_S512x1_0_45 : ∀ a, (![0, 45] : Fin 2 → Nat) a + S512x1.size a ≤ S512x100.size a
  inb_S100x64_S1x64_44_0 : ∀ a, (![44, 0] : Fin 2 → Nat) a + S1x64.size a ≤ S100x64.size a
  inb_S100x64_S1x64_45_0 : ∀ a, (![45, 0] : Fin 2 → Nat) a + S1x64.size a ≤ S100x64.size a
  inb_S512x6400_S512x128_0_2816 : ∀ a, (![0, 2816] : Fin 2 → Nat) a + S512x128.size a ≤ S512x6400.size a
  inb_S512x100_S512x1_0_46 : ∀ a, (![0, 46] : Fin 2 → Nat) a + S512x1.size a ≤ S512x100.size a
  inb_S512x100_S512x1_0_47 : ∀ a, (![0, 47] : Fin 2 → Nat) a + S512x1.size a ≤ S512x100.size a
  inb_S100x64_S1x64_46_0 : ∀ a, (![46, 0] : Fin 2 → Nat) a + S1x64.size a ≤ S100x64.size a
  inb_S100x64_S1x64_47_0 : ∀ a, (![47, 0] : Fin 2 → Nat) a + S1x64.size a ≤ S100x64.size a
  inb_S512x6400_S512x128_0_2944 : ∀ a, (![0, 2944] : Fin 2 → Nat) a + S512x128.size a ≤ S512x6400.size a
  inb_S512x100_S512x1_0_48 : ∀ a, (![0, 48] : Fin 2 → Nat) a + S512x1.size a ≤ S512x100.size a
  inb_S512x100_S512x1_0_49 : ∀ a, (![0, 49] : Fin 2 → Nat) a + S512x1.size a ≤ S512x100.size a
  inb_S100x64_S1x64_48_0 : ∀ a, (![48, 0] : Fin 2 → Nat) a + S1x64.size a ≤ S100x64.size a
  inb_S100x64_S1x64_49_0 : ∀ a, (![49, 0] : Fin 2 → Nat) a + S1x64.size a ≤ S100x64.size a
  inb_S512x6400_S512x128_0_3072 : ∀ a, (![0, 3072] : Fin 2 → Nat) a + S512x128.size a ≤ S512x6400.size a
  inb_S512x100_S512x1_0_50 : ∀ a, (![0, 50] : Fin 2 → Nat) a + S512x1.size a ≤ S512x100.size a
  inb_S512x100_S512x1_0_51 : ∀ a, (![0, 51] : Fin 2 → Nat) a + S512x1.size a ≤ S512x100.size a
  inb_S100x64_S1x64_50_0 : ∀ a, (![50, 0] : Fin 2 → Nat) a + S1x64.size a ≤ S100x64.size a
  inb_S100x64_S1x64_51_0 : ∀ a, (![51, 0] : Fin 2 → Nat) a + S1x64.size a ≤ S100x64.size a
  inb_S512x6400_S512x128_0_3200 : ∀ a, (![0, 3200] : Fin 2 → Nat) a + S512x128.size a ≤ S512x6400.size a
  inb_S512x100_S512x1_0_52 : ∀ a, (![0, 52] : Fin 2 → Nat) a + S512x1.size a ≤ S512x100.size a
  inb_S512x100_S512x1_0_53 : ∀ a, (![0, 53] : Fin 2 → Nat) a + S512x1.size a ≤ S512x100.size a
  inb_S100x64_S1x64_52_0 : ∀ a, (![52, 0] : Fin 2 → Nat) a + S1x64.size a ≤ S100x64.size a
  inb_S100x64_S1x64_53_0 : ∀ a, (![53, 0] : Fin 2 → Nat) a + S1x64.size a ≤ S100x64.size a
  inb_S512x6400_S512x128_0_3328 : ∀ a, (![0, 3328] : Fin 2 → Nat) a + S512x128.size a ≤ S512x6400.size a
  inb_S512x100_S512x1_0_54 : ∀ a, (![0, 54] : Fin 2 → Nat) a + S512x1.size a ≤ S512x100.size a
  inb_S512x100_S512x1_0_55 : ∀ a, (![0, 55] : Fin 2 → Nat) a + S512x1.size a ≤ S512x100.size a
  inb_S100x64_S1x64_54_0 : ∀ a, (![54, 0] : Fin 2 → Nat) a + S1x64.size a ≤ S100x64.size a
  inb_S100x64_S1x64_55_0 : ∀ a, (![55, 0] : Fin 2 → Nat) a + S1x64.size a ≤ S100x64.size a
  inb_S512x6400_S512x128_0_3456 : ∀ a, (![0, 3456] : Fin 2 → Nat) a + S512x128.size a ≤ S512x6400.size a
  inb_S512x100_S512x1_0_56 : ∀ a, (![0, 56] : Fin 2 → Nat) a + S512x1.size a ≤ S512x100.size a
  inb_S512x100_S512x1_0_57 : ∀ a, (![0, 57] : Fin 2 → Nat) a + S512x1.size a ≤ S512x100.size a
  inb_S100x64_S1x64_56_0 : ∀ a, (![56, 0] : Fin 2 → Nat) a + S1x64.size a ≤ S100x64.size a
  inb_S100x64_S1x64_57_0 : ∀ a, (![57, 0] : Fin 2 → Nat) a + S1x64.size a ≤ S100x64.size a
  inb_S512x6400_S512x128_0_3584 : ∀ a, (![0, 3584] : Fin 2 → Nat) a + S512x128.size a ≤ S512x6400.size a
  inb_S512x100_S512x1_0_58 : ∀ a, (![0, 58] : Fin 2 → Nat) a + S512x1.size a ≤ S512x100.size a
  inb_S512x100_S512x1_0_59 : ∀ a, (![0, 59] : Fin 2 → Nat) a + S512x1.size a ≤ S512x100.size a
  inb_S100x64_S1x64_58_0 : ∀ a, (![58, 0] : Fin 2 → Nat) a + S1x64.size a ≤ S100x64.size a
  inb_S100x64_S1x64_59_0 : ∀ a, (![59, 0] : Fin 2 → Nat) a + S1x64.size a ≤ S100x64.size a
  inb_S512x6400_S512x128_0_3712 : ∀ a, (![0, 3712] : Fin 2 → Nat) a + S512x128.size a ≤ S512x6400.size a
  inb_S512x100_S512x1_0_60 : ∀ a, (![0, 60] : Fin 2 → Nat) a + S512x1.size a ≤ S512x100.size a
  inb_S512x100_S512x1_0_61 : ∀ a, (![0, 61] : Fin 2 → Nat) a + S512x1.size a ≤ S512x100.size a
  inb_S100x64_S1x64_60_0 : ∀ a, (![60, 0] : Fin 2 → Nat) a + S1x64.size a ≤ S100x64.size a
  inb_S100x64_S1x64_61_0 : ∀ a, (![61, 0] : Fin 2 → Nat) a + S1x64.size a ≤ S100x64.size a
  inb_S512x6400_S512x128_0_3840 : ∀ a, (![0, 3840] : Fin 2 → Nat) a + S512x128.size a ≤ S512x6400.size a
  inb_S512x100_S512x1_0_62 : ∀ a, (![0, 62] : Fin 2 → Nat) a + S512x1.size a ≤ S512x100.size a
  inb_S512x100_S512x1_0_63 : ∀ a, (![0, 63] : Fin 2 → Nat) a + S512x1.size a ≤ S512x100.size a
  inb_S100x64_S1x64_62_0 : ∀ a, (![62, 0] : Fin 2 → Nat) a + S1x64.size a ≤ S100x64.size a
  inb_S100x64_S1x64_63_0 : ∀ a, (![63, 0] : Fin 2 → Nat) a + S1x64.size a ≤ S100x64.size a
  inb_S512x6400_S512x128_0_3968 : ∀ a, (![0, 3968] : Fin 2 → Nat) a + S512x128.size a ≤ S512x6400.size a
  inb_S512x100_S512x1_0_64 : ∀ a, (![0, 64] : Fin 2 → Nat) a + S512x1.size a ≤ S512x100.size a
  inb_S512x100_S512x1_0_65 : ∀ a, (![0, 65] : Fin 2 → Nat) a + S512x1.size a ≤ S512x100.size a
  inb_S100x64_S1x64_64_0 : ∀ a, (![64, 0] : Fin 2 → Nat) a + S1x64.size a ≤ S100x64.size a
  inb_S100x64_S1x64_65_0 : ∀ a, (![65, 0] : Fin 2 → Nat) a + S1x64.size a ≤ S100x64.size a
  inb_S512x6400_S512x128_0_4096 : ∀ a, (![0, 4096] : Fin 2 → Nat) a + S512x128.size a ≤ S512x6400.size a
  inb_S512x100_S512x1_0_66 : ∀ a, (![0, 66] : Fin 2 → Nat) a + S512x1.size a ≤ S512x100.size a
  inb_S512x100_S512x1_0_67 : ∀ a, (![0, 67] : Fin 2 → Nat) a + S512x1.size a ≤ S512x100.size a
  inb_S100x64_S1x64_66_0 : ∀ a, (![66, 0] : Fin 2 → Nat) a + S1x64.size a ≤ S100x64.size a
  inb_S100x64_S1x64_67_0 : ∀ a, (![67, 0] : Fin 2 → Nat) a + S1x64.size a ≤ S100x64.size a
  inb_S512x6400_S512x128_0_4224 : ∀ a, (![0, 4224] : Fin 2 → Nat) a + S512x128.size a ≤ S512x6400.size a
  inb_S512x100_S512x1_0_68 : ∀ a, (![0, 68] : Fin 2 → Nat) a + S512x1.size a ≤ S512x100.size a
  inb_S512x100_S512x1_0_69 : ∀ a, (![0, 69] : Fin 2 → Nat) a + S512x1.size a ≤ S512x100.size a
  inb_S100x64_S1x64_68_0 : ∀ a, (![68, 0] : Fin 2 → Nat) a + S1x64.size a ≤ S100x64.size a
  inb_S100x64_S1x64_69_0 : ∀ a, (![69, 0] : Fin 2 → Nat) a + S1x64.size a ≤ S100x64.size a
  inb_S512x6400_S512x128_0_4352 : ∀ a, (![0, 4352] : Fin 2 → Nat) a + S512x128.size a ≤ S512x6400.size a
  inb_S512x100_S512x1_0_70 : ∀ a, (![0, 70] : Fin 2 → Nat) a + S512x1.size a ≤ S512x100.size a
  inb_S512x100_S512x1_0_71 : ∀ a, (![0, 71] : Fin 2 → Nat) a + S512x1.size a ≤ S512x100.size a
  inb_S100x64_S1x64_70_0 : ∀ a, (![70, 0] : Fin 2 → Nat) a + S1x64.size a ≤ S100x64.size a
  inb_S100x64_S1x64_71_0 : ∀ a, (![71, 0] : Fin 2 → Nat) a + S1x64.size a ≤ S100x64.size a
  inb_S512x6400_S512x128_0_4480 : ∀ a, (![0, 4480] : Fin 2 → Nat) a + S512x128.size a ≤ S512x6400.size a
  inb_S512x100_S512x1_0_72 : ∀ a, (![0, 72] : Fin 2 → Nat) a + S512x1.size a ≤ S512x100.size a
  inb_S512x100_S512x1_0_73 : ∀ a, (![0, 73] : Fin 2 → Nat) a + S512x1.size a ≤ S512x100.size a
  inb_S100x64_S1x64_72_0 : ∀ a, (![72, 0] : Fin 2 → Nat) a + S1x64.size a ≤ S100x64.size a
  inb_S100x64_S1x64_73_0 : ∀ a, (![73, 0] : Fin 2 → Nat) a + S1x64.size a ≤ S100x64.size a
  inb_S512x6400_S512x128_0_4608 : ∀ a, (![0, 4608] : Fin 2 → Nat) a + S512x128.size a ≤ S512x6400.size a
  inb_S512x100_S512x1_0_74 : ∀ a, (![0, 74] : Fin 2 → Nat) a + S512x1.size a ≤ S512x100.size a
  inb_S512x100_S512x1_0_75 : ∀ a, (![0, 75] : Fin 2 → Nat) a + S512x1.size a ≤ S512x100.size a
  inb_S100x64_S1x64_74_0 : ∀ a, (![74, 0] : Fin 2 → Nat) a + S1x64.size a ≤ S100x64.size a
  inb_S100x64_S1x64_75_0 : ∀ a, (![75, 0] : Fin 2 → Nat) a + S1x64.size a ≤ S100x64.size a
  inb_S512x6400_S512x128_0_4736 : ∀ a, (![0, 4736] : Fin 2 → Nat) a + S512x128.size a ≤ S512x6400.size a
  inb_S512x100_S512x1_0_76 : ∀ a, (![0, 76] : Fin 2 → Nat) a + S512x1.size a ≤ S512x100.size a
  inb_S512x100_S512x1_0_77 : ∀ a, (![0, 77] : Fin 2 → Nat) a + S512x1.size a ≤ S512x100.size a
  inb_S100x64_S1x64_76_0 : ∀ a, (![76, 0] : Fin 2 → Nat) a + S1x64.size a ≤ S100x64.size a
  inb_S100x64_S1x64_77_0 : ∀ a, (![77, 0] : Fin 2 → Nat) a + S1x64.size a ≤ S100x64.size a
  inb_S512x6400_S512x128_0_4864 : ∀ a, (![0, 4864] : Fin 2 → Nat) a + S512x128.size a ≤ S512x6400.size a
  inb_S512x100_S512x1_0_78 : ∀ a, (![0, 78] : Fin 2 → Nat) a + S512x1.size a ≤ S512x100.size a
  inb_S512x100_S512x1_0_79 : ∀ a, (![0, 79] : Fin 2 → Nat) a + S512x1.size a ≤ S512x100.size a
  inb_S100x64_S1x64_78_0 : ∀ a, (![78, 0] : Fin 2 → Nat) a + S1x64.size a ≤ S100x64.size a
  inb_S100x64_S1x64_79_0 : ∀ a, (![79, 0] : Fin 2 → Nat) a + S1x64.size a ≤ S100x64.size a
  inb_S512x6400_S512x128_0_4992 : ∀ a, (![0, 4992] : Fin 2 → Nat) a + S512x128.size a ≤ S512x6400.size a
  inb_S512x100_S512x1_0_80 : ∀ a, (![0, 80] : Fin 2 → Nat) a + S512x1.size a ≤ S512x100.size a
  inb_S512x100_S512x1_0_81 : ∀ a, (![0, 81] : Fin 2 → Nat) a + S512x1.size a ≤ S512x100.size a
  inb_S100x64_S1x64_80_0 : ∀ a, (![80, 0] : Fin 2 → Nat) a + S1x64.size a ≤ S100x64.size a
  inb_S100x64_S1x64_81_0 : ∀ a, (![81, 0] : Fin 2 → Nat) a + S1x64.size a ≤ S100x64.size a
  inb_S512x6400_S512x128_0_5120 : ∀ a, (![0, 5120] : Fin 2 → Nat) a + S512x128.size a ≤ S512x6400.size a
  inb_S512x100_S512x1_0_82 : ∀ a, (![0, 82] : Fin 2 → Nat) a + S512x1.size a ≤ S512x100.size a
  inb_S512x100_S512x1_0_83 : ∀ a, (![0, 83] : Fin 2 → Nat) a + S512x1.size a ≤ S512x100.size a
  inb_S100x64_S1x64_82_0 : ∀ a, (![82, 0] : Fin 2 → Nat) a + S1x64.size a ≤ S100x64.size a
  inb_S100x64_S1x64_83_0 : ∀ a, (![83, 0] : Fin 2 → Nat) a + S1x64.size a ≤ S100x64.size a
  inb_S512x6400_S512x128_0_5248 : ∀ a, (![0, 5248] : Fin 2 → Nat) a + S512x128.size a ≤ S512x6400.size a
  inb_S512x100_S512x1_0_84 : ∀ a, (![0, 84] : Fin 2 → Nat) a + S512x1.size a ≤ S512x100.size a
  inb_S512x100_S512x1_0_85 : ∀ a, (![0, 85] : Fin 2 → Nat) a + S512x1.size a ≤ S512x100.size a
  inb_S100x64_S1x64_84_0 : ∀ a, (![84, 0] : Fin 2 → Nat) a + S1x64.size a ≤ S100x64.size a
  inb_S100x64_S1x64_85_0 : ∀ a, (![85, 0] : Fin 2 → Nat) a + S1x64.size a ≤ S100x64.size a
  inb_S512x6400_S512x128_0_5376 : ∀ a, (![0, 5376] : Fin 2 → Nat) a + S512x128.size a ≤ S512x6400.size a
  inb_S512x100_S512x1_0_86 : ∀ a, (![0, 86] : Fin 2 → Nat) a + S512x1.size a ≤ S512x100.size a
  inb_S512x100_S512x1_0_87 : ∀ a, (![0, 87] : Fin 2 → Nat) a + S512x1.size a ≤ S512x100.size a
  inb_S100x64_S1x64_86_0 : ∀ a, (![86, 0] : Fin 2 → Nat) a + S1x64.size a ≤ S100x64.size a
  inb_S100x64_S1x64_87_0 : ∀ a, (![87, 0] : Fin 2 → Nat) a + S1x64.size a ≤ S100x64.size a
  inb_S512x6400_S512x128_0_5504 : ∀ a, (![0, 5504] : Fin 2 → Nat) a + S512x128.size a ≤ S512x6400.size a
  inb_S512x100_S512x1_0_88 : ∀ a, (![0, 88] : Fin 2 → Nat) a + S512x1.size a ≤ S512x100.size a
  inb_S512x100_S512x1_0_89 : ∀ a, (![0, 89] : Fin 2 → Nat) a + S512x1.size a ≤ S512x100.size a
  inb_S100x64_S1x64_88_0 : ∀ a, (![88, 0] : Fin 2 → Nat) a + S1x64.size a ≤ S100x64.size a
  inb_S100x64_S1x64_89_0 : ∀ a, (![89, 0] : Fin 2 → Nat) a + S1x64.size a ≤ S100x64.size a
  inb_S512x6400_S512x128_0_5632 : ∀ a, (![0, 5632] : Fin 2 → Nat) a + S512x128.size a ≤ S512x6400.size a
  inb_S512x100_S512x1_0_90 : ∀ a, (![0, 90] : Fin 2 → Nat) a + S512x1.size a ≤ S512x100.size a
  inb_S512x100_S512x1_0_91 : ∀ a, (![0, 91] : Fin 2 → Nat) a + S512x1.size a ≤ S512x100.size a
  inb_S100x64_S1x64_90_0 : ∀ a, (![90, 0] : Fin 2 → Nat) a + S1x64.size a ≤ S100x64.size a
  inb_S100x64_S1x64_91_0 : ∀ a, (![91, 0] : Fin 2 → Nat) a + S1x64.size a ≤ S100x64.size a
  inb_S512x6400_S512x128_0_5760 : ∀ a, (![0, 5760] : Fin 2 → Nat) a + S512x128.size a ≤ S512x6400.size a
  inb_S512x100_S512x1_0_92 : ∀ a, (![0, 92] : Fin 2 → Nat) a + S512x1.size a ≤ S512x100.size a
  inb_S512x100_S512x1_0_93 : ∀ a, (![0, 93] : Fin 2 → Nat) a + S512x1.size a ≤ S512x100.size a
  inb_S100x64_S1x64_92_0 : ∀ a, (![92, 0] : Fin 2 → Nat) a + S1x64.size a ≤ S100x64.size a
  inb_S100x64_S1x64_93_0 : ∀ a, (![93, 0] : Fin 2 → Nat) a + S1x64.size a ≤ S100x64.size a
  inb_S512x6400_S512x128_0_5888 : ∀ a, (![0, 5888] : Fin 2 → Nat) a + S512x128.size a ≤ S512x6400.size a
  inb_S512x100_S512x1_0_94 : ∀ a, (![0, 94] : Fin 2 → Nat) a + S512x1.size a ≤ S512x100.size a
  inb_S512x100_S512x1_0_95 : ∀ a, (![0, 95] : Fin 2 → Nat) a + S512x1.size a ≤ S512x100.size a
  inb_S100x64_S1x64_94_0 : ∀ a, (![94, 0] : Fin 2 → Nat) a + S1x64.size a ≤ S100x64.size a
  inb_S100x64_S1x64_95_0 : ∀ a, (![95, 0] : Fin 2 → Nat) a + S1x64.size a ≤ S100x64.size a
  inb_S512x6400_S512x128_0_6016 : ∀ a, (![0, 6016] : Fin 2 → Nat) a + S512x128.size a ≤ S512x6400.size a
  inb_S512x100_S512x1_0_96 : ∀ a, (![0, 96] : Fin 2 → Nat) a + S512x1.size a ≤ S512x100.size a
  inb_S512x100_S512x1_0_97 : ∀ a, (![0, 97] : Fin 2 → Nat) a + S512x1.size a ≤ S512x100.size a
  inb_S100x64_S1x64_96_0 : ∀ a, (![96, 0] : Fin 2 → Nat) a + S1x64.size a ≤ S100x64.size a
  inb_S100x64_S1x64_97_0 : ∀ a, (![97, 0] : Fin 2 → Nat) a + S1x64.size a ≤ S100x64.size a
  inb_S512x6400_S512x128_0_6144 : ∀ a, (![0, 6144] : Fin 2 → Nat) a + S512x128.size a ≤ S512x6400.size a
  inb_S512x100_S512x1_0_98 : ∀ a, (![0, 98] : Fin 2 → Nat) a + S512x1.size a ≤ S512x100.size a
  inb_S512x100_S512x1_0_99 : ∀ a, (![0, 99] : Fin 2 → Nat) a + S512x1.size a ≤ S512x100.size a
  inb_S100x64_S1x64_98_0 : ∀ a, (![98, 0] : Fin 2 → Nat) a + S1x64.size a ≤ S100x64.size a
  inb_S100x64_S1x64_99_0 : ∀ a, (![99, 0] : Fin 2 → Nat) a + S1x64.size a ≤ S100x64.size a
  inb_S512x6400_S512x128_0_6272 : ∀ a, (![0, 6272] : Fin 2 → Nat) a + S512x128.size a ≤ S512x6400.size a
  shapeCasts_S8192x6400_S8192x1x6400 : S8192x6400.ShapeCasts S8192x1x6400
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x100.size a ≤ S8192x100.size a
  hwx0_0 : ∀ i : grid0.Coords, EltTy.bits .f32 = 32 ∨ (Rect.block (s := S8192x100) S512x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x6400.size a ≤ S8192x6400.size a
  hwx0_2 : ∀ i : grid0.Coords, EltTy.bits .f32 = 32 ∨ (Rect.block (s := S8192x6400) S512x6400.size (cc0_transform_2 i) (hinb0_2 i)).WholeWords (EltTy.packing .f32)

variable [Facts₀]

abbrev win0_0 : Pipeline.Window sig grid0 :=
  Pipeline.Window.ofSpec (Memref.whole main_arg0) S512x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x6400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x100 : Shape := ⟨2, ![8192, 100]⟩
abbrev S100x64 : Shape := ⟨2, ![100, 64]⟩
abbrev S8192x100x1 : Shape := ⟨3, ![8192, 100, 1]⟩
abbrev S1x100x64 : Shape := ⟨3, ![1, 100, 64]⟩
abbrev S8192x100x64 : Shape := ⟨3, ![8192, 100, 64]⟩
abbrev S8192x1x6400 : Shape := ⟨3, ![8192, 1, 6400]⟩

abbrev nBuf : Space → Nat
  | .hbm => 8
  | .vmem => 0
  | .smem => 0
  | _ => 0

abbrev bufTy : (tb : Table) → Fin (tcTables nBuf tb) → BufTy
  | .hbm, ⟨0, _⟩ => ⟨S8192x100, .f32⟩
  | .hbm, ⟨1, _⟩ => ⟨S100x64, .f32⟩
  | .hbm, ⟨2, _⟩ => ⟨S8192x100x1, .f32⟩
  | .hbm, ⟨3, _⟩ => ⟨S1x100x64, .f32⟩
  | .hbm, ⟨4, _⟩ => ⟨S8192x100x64, .f32⟩
  | .hbm, ⟨5, _⟩ => ⟨S8192x100x64, .f32⟩
  | .hbm, ⟨6, _⟩ => ⟨S8192x100x64, .f32⟩
  | .hbm, ⟨7, _⟩ => ⟨S8192x1x6400, .f32⟩
  | _, _ => ⟨S8192x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S8192x100_S8192x100x1_0_1 : S8192x100.BroadcastsInDim S8192x100x1 (![0, 1] : Fin 2 → Fin S8192x100x1.rank)
  bcast_S100x64_S1x100x64_1_2 : S100x64.BroadcastsInDim S1x100x64 (![1, 2] : Fin 2 → Fin S1x100x64.rank)
  bcast_S8192x100x1_S8192x100x64_0_1_2 : S8192x100x1.BroadcastsInDim S8192x100x64 (![0, 1, 2] : Fin 3 → Fin S8192x100x64.rank)
  bcast_S1x100x64_S8192x100x64_0_1_2 : S1x100x64.BroadcastsInDim S8192x100x64 (![0, 1, 2] : Fin 3 → Fin S8192x100x64.rank)
  shapeCasts_S8192x100x64_S8192x1x6400 : S8192x100x64.ShapeCasts S8192x1x6400

variable [Facts₀]

class Facts : Prop extends Facts₀ where

variable [Facts]
-- ==== Proof.Chunk.lean ====
/-
  One store of the kernel body writes a [512, 128] chunk: two neighbouring columns of the x block, each laid over 64
  lanes and multiplied lane by lane with its own row of the table, the two products set side by side. Read at an
  entry (r, q): lanes 0..63 hold column one at row r times the first table row at lane q, lanes 64..127 hold column
  two at row r times the second table row at lane q - 64.
-/
import proofs.«140674_j25838523252762_1_alg».proof.Proof.Gen.KernelIdeal.Skeleton
import Idealize.ShloMosaic.Lib.Pipeline.Value
import Idealize.ShloMosaic.Lib.ValueIdx

noncomputable section

namespace Cert.KernelIdeal.Chunk

open Idealize.ShloMosaic Idealize.ShloMosaic.ValueIdx
open Cert.KernelIdeal Cert.KernelIdeal.Gen

/-- A [512, 1] column laid over 64 lanes reads the column at the row. -/
theorem col_over_lanes (a : Vec Ideal S512x1 .f32) (r : Fin 512) (q : Fin 64) :
    broadcastTo S512x64 a broadcasts_S512x1_S512x64 (ix2 r q) = a (ix2 r 0) :=
  broadcastTo_apply a broadcasts_S512x1_S512x64 (ix2 r q) (ix2 r 0) (fun d => match d with
    | ⟨0, _⟩ => by show r.val = if (512 : Nat) = 1 then 0 else r.val; rw [if_neg (by decide)]
    | ⟨1, _⟩ => by show (0 : Nat) = if (1 : Nat) = 1 then 0 else q.val; rw [if_pos rfl])

/-- A [1, 64] table row laid over 512 rows reads the table row at the lane. -/
theorem row_over_rows (w : Vec Ideal S1x64 .f32) (r : Fin 512) (q : Fin 64) :
    broadcastTo S512x64 w broadcasts_S1x64_S512x64 (ix2 r q) = w (ix2 0 q) :=
  broadcastTo_apply w broadcasts_S1x64_S512x64 (ix2 r q) (ix2 0 q) (fun d => match d with
    | ⟨0, _⟩ => by show (0 : Nat) = if (1 : Nat) = 1 then 0 else r.val; rw [if_pos rfl]
    | ⟨1, _⟩ => by show q.val = if (64 : Nat) = 1 then 0 else q.val; rw [if_neg (by decide)])

/-- The chunk at a lane of its left half. -/
theorem chunk_left (a b : Vec Ideal S512x1 .f32) (wa wb : Vec Ideal S1x64 .f32) (r : Fin 512) (q : Fin 128)
    (hq : q.val < 64) :
    k0_pay2 (F := Ideal) a b wa wb (ix2 r q) = a (ix2 r 0) * wa (ix2 0 (⟨q.val, hq⟩ : Fin 64)) := by
  unfold k0_pay2
  refine (concatenate_pair_apply_left (t := S512x128) (s₁ := S512x64) (s₂ := S512x64) (1 : Fin 2) _ _
    concatenates_S512x64_S512x64_S512x128_d1 (ix2 r q) rfl
    (ix2 r (⟨q.val, hq⟩ : Fin 64)) (fun d => match d with | ⟨0, _⟩ => rfl | ⟨1, _⟩ => rfl)).trans ?_
  refine (mulf_apply _ _ _).trans ?_
  exact congrArg₂ (· * ·) (col_over_lanes a r _) (row_over_rows wa r _)

/-- The chunk at a lane of its right half. -/
theorem chunk_right (a b : Vec Ideal S512x1 .f32) (wa wb : Vec Ideal S1x64 .f32) (r : Fin 512) (q : Fin 128)
    (hq : 64 ≤ q.val) :
    k0_pay2 (F := Ideal) a b wa wb (ix2 r q)
      = b (ix2 r 0) * wb (ix2 0 (⟨q.val - 64, by have := q.isLt; omega⟩ : Fin 64)) := by
  unfold k0_pay2
  refine (concatenate_pair_apply_right (t := S512x128) (s₁ := S512x64) (s₂ := S512x64) (1 : Fin 2) _ _
    concatenates_S512x64_S512x64_S512x128_d1 (ix2 r q) rfl rfl
    (ix2 r (⟨q.val - 64, by have := q.isLt; omega⟩ : Fin 64))
    (fun d hd => match d, hd with | ⟨0, _⟩, _ => rfl | ⟨1, _⟩, hd => absurd rfl hd)
    (by show q.val - 64 + 64 = q.val; omega)).trans ?_
  refine (mulf_apply _ _ _).trans ?_
  exact congrArg₂ (· * ·) (col_over_lanes b r _) (row_over_rows wb r _)

end Cert.KernelIdeal.Chunk

end
-- ==== Proof.Piece.lean ====
/-
  The kernel's [512, 6400] output block as ONE function of the x block and the table: entry (r, j) is column j / 64 of
  the x block at row r times the table at (j / 64, j % 64). A store at lanes 128 k .. 128 k + 127 that holds the chunk of
  columns 2 k and 2 k + 1 with table rows 2 k and 2 k + 1 holds the tile of that function under its rectangle.
-/
import proofs.«140674_j25838523252762_1_alg».proof.Proof.Chunk

noncomputable section

namespace Cert.KernelIdeal.Block

open Idealize.ShloMosaic Idealize.ShloMosaic.ValueIdx
open Cert.KernelIdeal Cert.KernelIdeal.Gen Cert.KernelIdeal.Chunk

/-- The output block as a function of the x block and the table, entry by entry. -/
def blockG (x0 : Vec Ideal S512x100 .f32) (x1 : Vec Ideal S100x64 .f32) : Vec Ideal S512x6400 .f32 := fun y =>
  x0 (ix2 (y 0) (⟨(y 1).val / 64, by have : (y 1).val < 6400 := (y 1).isLt; omega⟩ : Fin 100))
    * x1 (ix2 (⟨(y 1).val / 64, by have : (y 1).val < 6400 := (y 1).isLt; omega⟩ : Fin 100)
        (⟨(y 1).val % 64, Nat.mod_lt _ (by decide)⟩ : Fin 64))

/-- One store's chunk is the tile of `blockG` under the store's rectangle, whenever the five rectangles sit as the
    body's do: the store at lanes `128 k ..`, the two x columns at `2 k` and `2 k + 1`, the two table rows at the
    same two numbers (`k` read off the store's lane offset). -/
theorem piece_eq (x0 : Vec Ideal S512x100 .f32) (x1 : Vec Ideal S100x64 .f32)
    (oa ob owa owb oo : Fin 2 → Nat)
    (ha : ∀ a, oa a + S512x1.size a ≤ S512x100.size a) (hb : ∀ a, ob a + S512x1.size a ≤ S512x100.size a)
    (hwa : ∀ a, owa a + S1x64.size a ≤ S100x64.size a) (hwb : ∀ a, owb a + S1x64.size a ≤ S100x64.size a)
    (ho : ∀ a, oo a + S512x128.size a ≤ S512x6400.size a)
    (h : oo 0 = 0 ∧ oo 1 % 128 = 0 ∧ oa 0 = 0 ∧ oa 1 = 2 * (oo 1 / 128) ∧ ob 0 = 0 ∧ ob 1 = 2 * (oo 1 / 128) + 1
      ∧ owa 0 = 2 * (oo 1 / 128) ∧ owa 1 = 0 ∧ owb 0 = 2 * (oo 1 / 128) + 1 ∧ owb 1 = 0)
    (x : S512x128.Idx) :
    k0_pay2 (F := Ideal) (View.ld x0 (Rect.unit (s := S512x100) oa S512x1.size ha))
        (View.ld x0 (Rect.unit (s := S512x100) ob S512x1.size hb))
        (View.ld x1 (Rect.unit (s := S100x64) owa S1x64.size hwa))
        (View.ld x1 (Rect.unit (s := S100x64) owb S1x64.size hwb)) x
      = blockG x0 x1 ((Rect.unit (s := S512x6400) oo S512x128.size ho).emb x) := by
  obtain ⟨o0, o1, a0, a1, b0, b1, wa0, wa1, wb0, wb1⟩ := h
  obtain ⟨r, q, rfl⟩ : ∃ (r : Fin 512) (q : Fin 128), x = ix2 r q := ⟨x 0, x 1, eq_ix2 x⟩
  have hq : q.val < 128 := q.isLt
  by_cases hl : q.val < 64
  · rw [chunk_left _ _ _ _ r q hl]
    unfold blockG
    refine congrArg₂ (· * ·) (congrArg x0 (funext fun d => Fin.ext ?_)) (congrArg x1 (funext fun d => Fin.ext ?_))
    · match d with
      | ⟨0, _⟩ => show oa 0 + 1 * r.val = oo 0 + 1 * r.val; omega
      | ⟨1, _⟩ => show oa 1 + 1 * 0 = (oo 1 + 1 * q.val) / 64; omega
    · match d with
      | ⟨0, _⟩ => show owa 0 + 1 * 0 = (oo 1 + 1 * q.val) / 64; omega
      | ⟨1, _⟩ => show owa 1 + 1 * q.val = (oo 1 + 1 * q.val) % 64; omega
  · rw [chunk_right _ _ _ _ r q (by omega)]
    unfold blockG
    refine congrArg₂ (· * ·) (congrArg x0 (funext fun d => Fin.ext ?_)) (congrArg x1 (funext fun d => Fin.ext ?_))
    · match d with
      | ⟨0, _⟩ => show ob 0 + 1 * r.val = oo 0 + 1 * r.val; omega
      | ⟨1, _⟩ => show ob 1 + 1 * 0 = (oo 1 + 1 * q.val) / 64; omega
    · match d with
      | ⟨0, _⟩ => show owb 0 + 1 * 0 = (oo 1 + 1 * q.val) / 64; omega
      | ⟨1, _⟩ => show owb 1 + 1 * (q.val - 64) = (oo 1 + 1 * q.val) % 64; omega

end Cert.KernelIdeal.Block

end
-- ==== Proof.Block.lean ====
/-
  What the kernel body leaves in its output block. The body fills the [512, 6400] block by 50 stores of [512, 128]
  chunks; store k covers lanes 128 k .. 128 k + 127 and holds the chunk of x columns 2 k and 2 k + 1 with table rows 2 k
  and 2 k + 1. Each store's chunk is therefore the tile of the one block function under its rectangle, and the stores
  tile the block: the block ends at that function.
-/
import proofs.«140674_j25838523252762_1_alg».proof.Proof.Gen.KernelIdeal.Frame
import proofs.«140674_j25838523252762_1_alg».proof.Proof.Piece

set_option maxRecDepth 16384

noncomputable section

namespace Cert.KernelIdeal.Block

open Idealize.ShloMosaic Idealize.ShloMosaic.ValueIdx
open Cert.KernelIdeal Cert.KernelIdeal.Gen Cert.KernelIdeal.Chunk

set_option maxHeartbeats 4000000 in
/-- The body's 50 stores leave `blockG` of the two input blocks. -/
theorem out_eq (x0 : Vec Ideal S512x100 .f32) (x1 : Vec Ideal S100x64 .f32) :
    out0_2 (F := Ideal) x0 x1 = blockG x0 x1 := by
  funext y
  unfold out0_2
  dsimp only
  refine View.canon_apply_of_pieces (blockG x0 x1) _ ?_ y (cover0_2 _ _ _ _ _ _ _ _ _ _ _ _ _ _ _ _ _ _ _ _ _ _ _ _ _ _ _ _ _ _ _ _ _ _ _ _ _ _ _ _ _ _ _ _ _ _ _ _ _ _ y)
  iterate 50 (refine List.forall_mem_cons.2 ⟨fun x => piece_eq x0 x1 _ _ _ _ _ (by decide) (by decide) (by decide) (by decide) (by decide) (by decide) x, ?_⟩)
  exact fun _ hp => absurd hp List.not_mem_nil

end Cert.KernelIdeal.Block

end
-- ==== Proof.Spec.lean ====
/-
  The result both programs compute, as one function of the two arguments: for x of shape [8192, 100] and a table W of
  shape [100, 64], the [8192, 1, 6400] array whose entry (b, 0, j) is x[b, j / 64] * W[j / 64, j % 64] — every x entry
  multiplied along its own table row, the 100 rows of 64 products laid end to end. No sum and no division occur, so
  nothing here asks the entries to be finite.
-/
import Idealize.ShloMosaic.PureOps.Ideal
import Idealize.ShloMosaic.Lib.ValueIdx

noncomputable section

namespace Cert.Spec

open Idealize.ShloMosaic Idealize.ShloMosaic.ValueIdx

/-- The flat [8192, 6400] form: entry (b, j) is x[b, j / 64] * W[j / 64, j % 64]. -/
def flat (x : Vec Ideal ⟨2, ![8192, 100]⟩ .f32) (w : Vec Ideal ⟨2, ![100, 64]⟩ .f32) :
    Vec Ideal ⟨2, ![8192, 6400]⟩ .f32 := fun i =>
  x (ix2 (i 0) (⟨(i 1).val / 64, by have : (i 1).val < 6400 := (i 1).isLt; omega⟩ : Fin 100))
    * w (ix2 (⟨(i 1).val / 64, by have : (i 1).val < 6400 := (i 1).isLt; omega⟩ : Fin 100)
        (⟨(i 1).val % 64, Nat.mod_lt _ (by decide)⟩ : Fin 64))

/-- The result: the flat form with a unit axis in the middle. -/
def result (x : Vec Ideal ⟨2, ![8192, 100]⟩ .f32) (w : Vec Ideal ⟨2, ![100, 64]⟩ .f32) :
    Vec Ideal ⟨3, ![8192, 1, 6400]⟩ .f32 := fun i => flat x w (ix2 (i 0) (i 2))

end Cert.Spec

end
-- ==== Proof.ArrayValue.lean ====
/-
  From the output block to the output array, and through the reshape after the region. Grid point t stages rows
  512 t .. 512 t + 511 of x, the whole table, and writes back rows 512 t .. 512 t + 511 of the [8192, 6400] output; the
  block function of Block.lean at those blocks is the tile of the flat result under the point's rows, the 16 points'
  blocks cover every row, so the array ends at the flat result; the host reshape then only inserts the unit axis.
-/
import proofs.«140674_j25838523252762_1_alg».proof.Proof.Block
import proofs.«140674_j25838523252762_1_alg».proof.Proof.Spec
import Idealize.ShloMosaic.Lib.Pipeline.Value
import Idealize.ShloMosaic.Lib.StableHlo.Run

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The printed index maps over the grid: the x window and the output window sit at block row t, block column 0;
    the table window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x window's block at point t is rows 512 t .. of x. -/
theorem xblk_apply (c : Dev nD) (t : Fin cfg0.N) (y : S512x100.Idx) (k : S8192x100.Idx)
    (hk0 : (k 0).val = 512 * t.val + (y 0).val) (hk1 : (k 1).val = (y 1).val) :
    (iblk m c 0 t : Vec Ideal S512x100 .f32) y = (V m c main_arg0 : Vec Ideal S8192x100 .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 512 + 1 * (y 0).val = (k 0).val; rw [e0, hk0]; omega
  | ⟨1, _⟩ => show win0_0.index t 1 * 100 + 1 * (y 1).val = (k 1).val; rw [e1, hk1]; omega

/-- The table window's block is the whole table at every point. -/
theorem wblk_apply (c : Dev nD) (t : Fin cfg0.N) (y : S100x64.Idx) :
    (iblk m c 1 t : Vec Ideal S100x64 .f32) y = (V m c main_arg1 : Vec Ideal S100x64 .f32) y := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 100 + 1 * (y 0).val = (y 0).val; rw [e0]; omega
  | ⟨1, _⟩ => show win0_1.index t 1 * 64 + 1 * (y 1).val = (y 1).val; rw [e1]; omega

/-- What point t writes back is its rows of the flat result of the two arguments. -/
theorem flushed_eq (c : Dev nD) (t : Fin cfg0.N) :
    (dats m 0 c).flushed 2 t
      = ((cfg0.win 2).blk t).view.read (Elt Ideal) (Cert.Spec.flat (V m c main_arg0) (V m c main_arg1)) := by
  obtain ⟨-, -, -, -, e0, e1⟩ := idx_facts t
  show (cfg0.win 2).cut (grid0.coords t) ((dats m 0 c).after 2 t) = _
  rw [after0_2, Block.out_eq]
  funext j
  show Block.blockG (iblk m c 0 t) (iblk m c 1 t) j
    = Cert.Spec.flat (V m c main_arg0) (V m c main_arg1) (((cfg0.win 2).blk t).view.emb j)
  have hj0 : (j 0).val < 512 := (j 0).isLt
  have hj1 : (j 1).val < 6400 := (j 1).isLt
  have E0 : ((((cfg0.win 2).blk t).view.emb j) 0).val = 512 * t.val + (j 0).val := by
    show win0_2.index t 0 * 512 + 1 * (j 0).val = _; rw [e0]; omega
  have E1 : ((((cfg0.win 2).blk t).view.emb j) 1).val = (j 1).val := by
    show win0_2.index t 1 * 6400 + 1 * (j 1).val = _; rw [e1]; omega
  unfold Block.blockG Cert.Spec.flat
  refine congrArg₂ (· * ·) (xblk_apply m c t _ _ ?_ ?_) ((wblk_apply m c t _).trans (congrArg _ ?_))
  · exact E0
  · show (((cfg0.win 2).blk t).view.emb j 1).val / 64 = (j 1).val / 64; rw [E1]
  · funext d; apply Fin.ext
    match d with
    | ⟨0, _⟩ => show (j 1).val / 64 = (((cfg0.win 2).blk t).view.emb j 1).val / 64; rw [E1]
    | ⟨1, _⟩ => show (j 1).val % 64 = (((cfg0.win 2).blk t).view.emb j 1).val % 64; rw [E1]

/-- An index of the output array is in point t's block iff its row is among the point's 512 rows. -/
theorem mem_blk (t : Fin cfg0.N) (i : S8192x6400.Idx) :
    i ∈ ((cfg0.win 2).blk t).view.set ↔ ∀ a : Fin 2, win0_2.index t a * S512x6400.size a ≤ (i a).val
      ∧ (i a).val < win0_2.index t a * S512x6400.size a + S512x6400.size a := by
  show i ∈ ((View.whole main_v0).slice (win0_2.rect t)).set ↔ _
  rw [View.set_slice_whole, Rect.mem_set_unit]
  exact Iff.rfl

/-- Every index of the output array lies in the block of the point its row falls in. -/
theorem cover (i : S8192x6400.Idx) :
    ∃ t : Fin cfg0.N, (cfg0.win 2).flush t = true ∧ i ∈ ((cfg0.win 2).blk t).view.set := by
  have hi0 : (i 0).val < 8192 := (i 0).isLt
  have hi1 : (i 1).val < 6400 := (i 1).isLt
  have hN : cfg0.N = 16 := N_0
  let t : Fin cfg0.N := ⟨(i 0).val / 512, by rw [hN]; omega⟩
  obtain ⟨-, -, -, -, e0, e1⟩ := idx_facts t
  have ht : t.val = (i 0).val / 512 := rfl
  refine ⟨t, flush0_2 t, ?_⟩
  rw [mem_blk]
  intro a
  match a with
  | ⟨0, _⟩ => show win0_2.index t 0 * 512 ≤ (i 0).val ∧ (i 0).val < win0_2.index t 0 * 512 + 512; rw [e0, ht]; omega
  | ⟨1, _⟩ => show win0_2.index t 1 * 6400 ≤ (i 1).val ∧ (i 1).val < win0_2.index t 1 * 6400 + 6400; rw [e1]; omega

/-- The output array after the region is the flat result of the two arguments. -/
theorem final (c : Dev nD) :
    (dats m 0 c).arrAt 2 cfg0.N = Cert.Spec.flat (V m c main_arg0) (V m c main_arg1) :=
  (dats m 0 c).arrAt_eq_of_cover 2 _ (fun t _ => flushed_eq m c t) cover

/-- The reshape after the region leaves the result with its unit axis. -/
theorem tail_eq (c : Dev nD) :
    Pipeline.afterTail₀ cfgs (dats m) 0 (V0 m) [hostOps1] c main_v1
      = Cert.Spec.result (m ((c : Thread nD τ).loc main_arg0)) (m ((c : Thread nD τ).loc main_arg1)) := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.tc.devRef main_v0) = Cert.Spec.flat (V m c main_arg0) (V m c main_arg1) :=
    (Pipeline.withArrays_arr spec0 launch0.win.arr_inj c (V0 m c) (fun w => (dats m 0 c).arrAt w cfg0.N) 2).trans
      (final m c)
  rw [hw]
  funext i
  show shapeCast S8192x1x6400 (Cert.Spec.flat (V m c main_arg0) (V m c main_arg1))
    shapeCasts_S8192x6400_S8192x1x6400 i = _
  have h1 : (i 1).val < 1 := (i 1).isLt
  refine (shapeCast_apply (s := S8192x6400) _ shapeCasts_S8192x6400_S8192x1x6400 i (ix2 (i 0) (i 2)) ?_).trans rfl
  rw [Shape.rowMajor_val_two, Shape.rowMajor_val_three]
  show (i 0).val * 6400 + (i 2).val = ((i 0).val * 1 + (i 1).val) * 6400 + (i 2).val
  omega

/-- The main_v1 buffer is unscoped and no window's array, so the frame run's post speaks of it. -/
theorem v1_rest : main_v1 ∈ Pipeline.restRefs sig (cfgs 0).spec :=
  Pipeline.mem_restRefs_of main_v1 rfl (by decide)

/-- The kernel's run, read: the result at the common result function of the two arguments, the arguments kept. -/
theorem run : θ_run defs (onTc (τ := τ) (main (F := Ideal))) ⟨m, fun _ => 0, ρ⟩ fun r => ∀ c : Dev nD,
      r.2.mem ((c : Thread nD τ).loc main_v1)
        = Cert.Spec.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.RefValue.lean ====
/-
  The reference lays x over a new trailing axis and the table over a new leading axis, multiplies the two
  [8192, 100, 64] arrays entry by entry and flattens the last two axes. Read at an entry (b, 0, j) through the generated
  stage lemmas this is x[b, j / 64] * W[j / 64, j % 64]: the flattening sends lane j to table row j / 64 and column j % 64.
-/
import proofs.«140674_j25838523252762_1_alg».proof.Proof.Gen.ReferenceIdeal.Read
import proofs.«140674_j25838523252762_1_alg».proof.Proof.Spec

noncomputable section

namespace Cert.ReferenceIdeal.RefValue

open Idealize.ShloMosaic Idealize.ShloMosaic.ValueIdx
open Cert.ReferenceIdeal Cert.ReferenceIdeal.Read

/-- The reference's last stage is the common result function. -/
theorem ref_eq (x : Vec Ideal S8192x100 .f32) (w : Vec Ideal S100x64 .f32) :
    val_main_v5 (F := Ideal) x w = Cert.Spec.result x w := by
  funext i
  rw [val_main_v5_apply, val_main_v4_apply, val_main_v2_apply, val_main_v0_apply, val_main_v3_apply, val_main_v1_apply]
  have h0 : (i 0).val < 8192 := (i 0).isLt
  have h1 : (i 1).val < 1 := (i 1).isLt
  have h2 : (i 2).val < 6400 := (i 2).isLt
  unfold Cert.Spec.result Cert.Spec.flat
  refine congrArg₂ (· * ·) (congrArg x (funext fun d => Fin.ext ?_)) (congrArg w (funext fun d => Fin.ext ?_))
  · match d with
    | ⟨0, _⟩ => show (((i 0).val * 1 + (i 1).val) * 6400 + (i 2).val) / 6400 = (i 0).val; omega
    | ⟨1, _⟩ => show (((i 0).val * 1 + (i 1).val) * 6400 + (i 2).val) / 64 % 100 = (i 2).val / 64; omega
  · match d with
    | ⟨0, _⟩ => show (((i 0).val * 1 + (i 1).val) * 6400 + (i 2).val) / 64 % 100 = (i 2).val / 64; omega
    | ⟨1, _⟩ => show (((i 0).val * 1 + (i 1).val) * 6400 + (i 2).val) % 64 = (i 2).val % 64; omega

end Cert.ReferenceIdeal.RefValue

end
-- ==== Proof.lean ====
/-
  The kernel computes out[b, 0, 64 i + j] = x[b, i] * W[i, j] by 16 grid points of 512 rows each; at a point the body
  walks the 100 columns of its x block two at a time and stores, for the pair (2 k, 2 k + 1), the 128-lane chunk
  [x[:, 2 k] * W[2 k, :] | x[:, 2 k + 1] * W[2 k + 1, :]] at lanes 128 k ..; a host reshape then inserts the unit axis.
  The reference multiplies x laid over a trailing axis with W laid over a leading axis and flattens the last two
  axes. Both are the one function `Cert.Spec.result` of the arguments, entry by entry: lane 64 i + j of row b holds
  x[b, i] * W[i, j]. Only products of one x entry with one table entry occur, in the same order on both sides, so the
  equality holds on all extended reals and the finiteness of the inputs is never used.

  Chunk.lean reads one stored chunk at an entry; Piece.lean and Block.lean show the 50 stores leave the block function;
  ArrayValue.lean carries it to the output array over the grid and through the reshape; RefValue.lean reads the
  reference's stages at an entry. The three frames are the generated ones, the reference's its generated run with the
  result dropped; the idealization rewrote nothing, so `preserves` is trivial.
-/
import proofs.«140674_j25838523252762_1_alg».proof.Defs
import proofs.«140674_j25838523252762_1_alg».proof.Proof.Gen.Kernel
import proofs.«140674_j25838523252762_1_alg».proof.Proof.Gen.Kernel.Skeleton
import proofs.«140674_j25838523252762_1_alg».proof.Proof.Gen.Kernel.Launch
import proofs.«140674_j25838523252762_1_alg».proof.Proof.Gen.Kernel.Points
import proofs.«140674_j25838523252762_1_alg».proof.Proof.Gen.Kernel.Frame
import proofs.«140674_j25838523252762_1_alg».proof.Proof.Gen.KernelIdeal
import proofs.«140674_j25838523252762_1_alg».proof.Proof.Gen.KernelIdeal.Skeleton
import proofs.«140674_j25838523252762_1_alg».proof.Proof.Gen.KernelIdeal.Launch
import proofs.«140674_j25838523252762_1_alg».proof.Proof.Gen.KernelIdeal.Points
import proofs.«140674_j25838523252762_1_alg».proof.Proof.Gen.KernelIdeal.Frame
import proofs.«140674_j25838523252762_1_alg».proof.Proof.Gen.ReferenceIdeal
import proofs.«140674_j25838523252762_1_alg».proof.Proof.Gen.Pre_finite_inputs
import proofs.«140674_j25838523252762_1_alg».proof.Proof.Gen.ReferenceIdeal.Run
import proofs.«140674_j25838523252762_1_alg».proof.Proof.Gen.ReferenceIdeal.Read
import proofs.«140674_j25838523252762_1_alg».proof.Proof.ArrayValue
import proofs.«140674_j25838523252762_1_alg».proof.Proof.RefValue
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at `Cert.Spec.result` of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
